-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32000 : Shape := ⟨2, ![8192, 32000]⟩
abbrev S8192 : Shape := ⟨1, ![8192]⟩
abbrev S_ : Shape := ⟨0, ![]⟩

class Facts : Prop where
  bcast_S_S8192x32000 : S_.BroadcastsInDim S8192x32000 (![] : Fin 0 → Fin S8192x32000.rank)
  reducesTo_S8192x32000_S_d0_1 : S8192x32000.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x32000 .f32) (main_arg1 : IVec S8192 32) : IVec S_ 1 :=
  let main_v0 : FVec F S8192x32000 .f32 := Host.absf main_arg0
  let main_cst : FVec F S_ .f32 := constant S_ .f32 0x7F800000#32
  let main_v1 : FVec F S8192x32000 .f32 := broadcastInDim S8192x32000 ![] bcast_S_S8192x32000 main_cst
  let main_v2 : IVec S8192x32000 1 := cmpf .olt main_v0 main_v1
  let main_c : IVec S_ 1 := constantI S_ 1 1#1
  let main_v3 : IVec S_ 1 := (fun x v => Host.reduce IntOp.andi x v reducesTo_S8192x32000_S_d0_1 h_S_) main_v2 main_c
  let main_c_0 : IVec S_ 32 := constantI S_ 32 0#32
  let main_v4 : IVec S8192 32 := broadcastInDim S8192 ![] bcast_S_S8192 main_c_0
  let main_v5 : IVec S8192 1 := cmpi .sge main_arg1 main_v4
  let main_c_1 : IVec S_ 1 := constantI S_ 1 1#1
  let main_v6 : IVec S_ 1 := (fun x v => Host.reduce IntOp.andi x v reducesTo_S8192_S_d0 h_S_) main_v5 main_c_1
  let main_v7 : IVec S_ 1 := andi main_v3 main_v6
  let main_c_2 : IVec S_ 32 := constantI S_ 32 32000#32
  let main_v8 : IVec S8192 32 := broadcastInDim S8192 ![] bcast_S_S8192 main_c_2
  let main_v9 : IVec S8192 1 := cmpi .slt main_arg1 main_v8
  let main_c_3 : IVec S_ 1 := constantI S_ 1 1#1
  let main_v10 : IVec S_ 1 := (fun x v => Host.reduce IntOp.andi x v reducesTo_S8192_S_d0 h_S_) main_v9 main_c_3
  let main_v11 : IVec S_ 1 := andi main_v7 main_v10
  main_v11
-- ==== Kernel.lean ====
abbrev S8192x32000 : Shape := ⟨2, ![8192, 32000]⟩
abbrev S8192 : Shape := ⟨1, ![8192]⟩
abbrev S8192x1 : Shape := ⟨2, ![8192, 1]⟩
abbrev S512x1 : Shape := ⟨2, ![512, 1]⟩
abbrev S512x6400 : Shape := ⟨2, ![512, 6400]⟩
abbrev S512x640 : Shape := ⟨2, ![512, 640]⟩
abbrev S1x640 : Shape := ⟨2, ![1, 640]⟩
abbrev S512 : Shape := ⟨1, ![512]⟩
abbrev S_ : Shape := ⟨0, ![]⟩

abbrev nBuf : Space → Nat
  | .hbm => 10
  | .vmem => 7
  | .smem => 0
  | _ => 0

abbrev bufTy : (tb : Table) → Fin (tcTables nBuf tb) → BufTy
  | .hbm, ⟨0, _⟩ => ⟨S8192x32000, .f32⟩
  | .hbm, ⟨1, _⟩ => ⟨S8192, .i32⟩
  | .hbm, ⟨2, _⟩ => ⟨S8192x1, .i32⟩
  | .hbm, ⟨3, _⟩ => ⟨S8192x1, .f32⟩
  | .hbm, ⟨4, _⟩ => ⟨S8192, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S512x1, .i32⟩
  | .local _ .vmem, ⟨1, _⟩ => ⟨S512x1, .i32⟩
  | .local _ .vmem, ⟨2, _⟩ => ⟨S512x6400, .f32⟩
  | .local _ .vmem, ⟨3, _⟩ => ⟨S512x6400, .f32⟩
  | .local _ .vmem, ⟨4, _⟩ => ⟨S512x1, .f32⟩
  | .local _ .vmem, ⟨5, _⟩ => ⟨S512x1, .f32⟩
  | .local _ .vmem, ⟨6, _⟩ => ⟨S512x1, .f32⟩
  | _, _ => ⟨S8192x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 5], ![false, false]⟩

def k0_mult1 : BitVec 32 :=
  let c0_i32_2 : BitVec 32 := 0#32
  let c640_i32 : BitVec 32 := 640#32
  let v5 : BitVec 32 := Scalar.muli c0_i32_2 c640_i32
  v5
def k0_off1 (c0_i32_2 : BitVec 32) : Fin 2 → Nat :=
  let c0_3 : Index := 0#32
  let c640_i32 : BitVec 32 := 640#32
  let v5 : BitVec 32 := Scalar.muli c0_i32_2 c640_i32
  let v6 : BitVec 32 := v5
  let v7 : Index := Scalar.indexCast v6
  ![0, v7.toNat]
def k0_mult2 : BitVec 32 :=
  let c1_i32 : BitVec 32 := 1#32
  let c640_i32_9 : BitVec 32 := 640#32
  let v26 : BitVec 32 := Scalar.muli c1_i32 c640_i32_9
  v26
def k0_mult3 : BitVec 32 :=
  let c2_i32 : BitVec 32 := 2#32
  let c640_i32_18 : BitVec 32 := 640#32
  let v47 : BitVec 32 := Scalar.muli c2_i32 c640_i32_18
  v47
def k0_mult4 : BitVec 32 :=
  let c3_i32 : BitVec 32 := 3#32
  let c640_i32_27 : BitVec 32 := 640#32
  let v68 : BitVec 32 := Scalar.muli c3_i32 c640_i32_27
  v68
def k0_mult5 : BitVec 32 :=
  let c4_i32 : BitVec 32 := 4#32
  let c640_i32_36 : BitVec 32 := 640#32
  let v89 : BitVec 32 := Scalar.muli c4_i32 c640_i32_36
  v89
def k0_mult6 : BitVec 32 :=
  let c5_i32 : BitVec 32 := 5#32
  let c640_i32_45 : BitVec 32 := 640#32
  let v110 : BitVec 32 := Scalar.muli c5_i32 c640_i32_45
  v110
def k0_mult7 : BitVec 32 :=
  let c6_i32 : BitVec 32 := 6#32
  let c640_i32_54 : BitVec 32 := 640#32
  let v131 : BitVec 32 := Scalar.muli c6_i32 c640_i32_54
  v131
def k0_mult8 : BitVec 32 :=
  let c7_i32 : BitVec 32 := 7#32
  let c640_i32_63 : BitVec 32 := 640#32
  let v152 : BitVec 32 := Scalar.muli c7_i32 c640_i32_63
  v152
def k0_mult9 : BitVec 32 :=
  let c8_i32 : BitVec 32 := 8#32
  let c640_i32_72 : BitVec 32 := 640#32
  let v173 : BitVec 32 := Scalar.muli c8_i32 c640_i32_72
  v173
def k0_mult10 : BitVec 32 :=
  let c9_i32 : BitVec 32 := 9#32
  let c640_i32_81 : BitVec 32 := 640#32
  let v194 : BitVec 32 := Scalar.muli c9_i32 c640_i32_81
  v194
def k0_cond2 (i : grid0.Coords) : BitVec 1 :=
  let arg1 : BitVec 32 := BitVec.ofNat 32 (i 1).val
  let c4_i32_90 : BitVec 32 := 4#32
  let v215 : BitVec 1 := Scalar.cmpi .eq arg1 c4_i32_90
  let v216 : BitVec 32 := Scalar.extui v215
  let c0_i32_91 : BitVec 32 := 0#32
  let v217 : BitVec 1 := Scalar.cmpi .ne v216 c0_i32_91
  v217

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x6400 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S8192_S8192x1 : S8192.ShapeCasts S8192x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  h_S512x640 : 0 < S512x640.numel
  iota_S1x640_d1_w32 : S1x640.Iotas .tc 32 [1]
  broadcasts_S1x640_S512x640 : S1x640.Broadcasts S512x640
  broadcasts_S512x1_S512x640 : S512x1.Broadcasts S512x640
  reduces_S512x640_S512 : S512x640.Reduces [1] S512
  shapeCasts_S512_S512x1 : S512.ShapeCasts S512x1
  shapeCasts_S8192x1_S8192 : S8192x1.ShapeCasts S8192
  reducesTo_S8192_S_d0 : S8192.ReducesTo [0] S_
  h_S_ : 0 < S_.numel
  hrank0 : 0 < grid0.rank
  k0_mult1_dvd : 640 ∣ k0_mult1.toNat
  k0_off1_inb : ∀ (r : Fin 10), ∀ a, (k0_off1 (BitVec.ofNat 32 r.val)) a + S512x640.size a ≤ S512x6400.size a
  k0_mult2_dvd : 640 ∣ k0_mult2.toNat
  k0_mult3_dvd : 640 ∣ k0_mult3.toNat
  k0_mult4_dvd : 640 ∣ k0_mult4.toNat
  k0_mult5_dvd : 640 ∣ k0_mult5.toNat
  k0_mult6_dvd : 640 ∣ k0_mult6.toNat
  k0_mult7_dvd : 640 ∣ k0_mult7.toNat
  k0_mult8_dvd : 640 ∣ k0_mult8.toNat
  k0_mult9_dvd : 640 ∣ k0_mult9.toNat
  k0_mult10_dvd : 640 ∣ k0_mult10.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S8192x1.size a
  hwx0_0 : ∀ i : grid0.Coords, EltTy.bits .i32 = 32 ∨ (Rect.block (s := S8192x1) S512x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x6400.size a ≤ S8192x32000.size a
  hwx0_1 : ∀ i : grid0.Coords, EltTy.bits .f32 = 32 ∨ (Rect.block (s := S8192x32000) S512x6400.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)

variable [Facts₀]

abbrev win0_0 : Pipeline.Window sig grid0 :=
  Pipeline.Window.ofSpec (Memref.whole main_v0) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x6400.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x32000 : Shape := ⟨2, ![8192, 32000]⟩
abbrev S8192 : Shape := ⟨1, ![8192]⟩
abbrev S8192x1 : Shape := ⟨2, ![8192, 1]⟩
abbrev S_ : Shape := ⟨0, ![]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 35
  | .vmem => 0
  | .smem => 0
  | _ => 0

abbrev bufTy : (tb : Table) → Fin (tcTables nBuf tb) → BufTy
  | .hbm, ⟨0, _⟩ => ⟨S8192x32000, .f32⟩
  | .hbm, ⟨1, _⟩ => ⟨S8192, .i32⟩
  | .hbm, ⟨2, _⟩ => ⟨S8192x1, .i32⟩
  | .hbm, ⟨3, _⟩ => ⟨S_, .i32⟩
  | .hbm, ⟨4, _⟩ => ⟨S8192x1, .i32⟩
  | .hbm, ⟨5, _⟩ => ⟨S8192x1, .i1⟩
  | .hbm, ⟨6, _⟩ => ⟨S_, .i32⟩
  | .hbm, ⟨7, _⟩ => ⟨S8192x1, .i32⟩
  | .hbm, ⟨8, _⟩ => ⟨S8192x1, .i32⟩
  | .hbm, ⟨9, _⟩ => ⟨S8192x1, .i32⟩
  | .hbm, ⟨10, _⟩ => ⟨S8192x1x1, .i32⟩
  | .hbm, ⟨11, _⟩ => ⟨S1, .i32⟩
  | .hbm, ⟨12, _⟩ => ⟨S_, .i32⟩
  | .hbm, ⟨13, _⟩ => ⟨S8192x1x1, .i32⟩
  | .hbm, ⟨14, _⟩ => ⟨S8192x1x1, .i1⟩
  | .hbm, ⟨15, _⟩ => ⟨S1x1x1, .i32⟩
  | .hbm, ⟨16, _⟩ => ⟨S8192x1x1, .i32⟩
  | .hbm, ⟨17, _⟩ => ⟨S8192x1x1, .i1⟩
  | .hbm, ⟨18, _⟩ => ⟨S8192x1x1, .i1⟩
  | .hbm, ⟨19, _⟩ => ⟨S_, .i1⟩
  | .hbm, ⟨20, _⟩ => ⟨S8192x1, .i1⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S8192, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | _, _ => ⟨S8192x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev main_cst : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_cst_0 : Ref sig .tc := ⟨.hbm, 30, rfl⟩
abbrev main_v6 : Ref sig .tc := ⟨.hbm, 31, rfl⟩
abbrev main_cst_1 : Ref sig .tc := ⟨.hbm, 32, rfl⟩
abbrev main_v7 : Ref sig .tc := ⟨.hbm, 33, rfl⟩
abbrev main_v8 : Ref sig .tc := ⟨.hbm, 34, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  h_S_ : 0 < S_.numel
  shapeCasts_S8192x1_S8192 : S8192x1.ShapeCasts S8192
  bcast_S_S8192 : S_.BroadcastsInDim S8192 (![] : Fin 0 → Fin S8192.rank)
  reducesTo_S8192_S_d0 : S8192.ReducesTo [0] S_
  gather_S8192x32000_S8192x1x1_S8192x1_n_1_0_0_1_2_11_wf : GatherDims.WF S8192x32000 S8192x1x1 S8192x1 [] [1] [0] [1] [0] 2 ![1, 1]

variable [Facts₀]

def gather_S8192x32000_S8192x1x1_S8192x1_n_1_0_0_1_2_11 : GatherDims S8192x32000 S8192x1x1 S8192x1 where
  offsetDims := []
  collapsedSliceDims := [1]
  operandBatchingDims := [0]
  startIndicesBatchingDims := [0]
  startIndexMap := [1]
  indexVectorDim := 2
  sliceSizes := ![1, 1]
  wf := gather_S8192x32000_S8192x1x1_S8192x1_n_1_0_0_1_2_11_wf

class Facts : Prop extends Facts₀ where

variable [Facts]
-- ==== Proof.Spec.lean ====
/-
  What both programs compute: the mean negative log-likelihood of the labelled entries of a table of probabilities.
  For row `r` of the [8192, 32000] table `p` and its label `lab r` (a column number), the row's term is
  `log (max (p r (lab r)) c)` with `c` the clamp threshold (the binary32 word nearest 1e-8), and the loss is
  `-((0 + ∑ r, term r) / 8192)`. The labels are column numbers: `LabelsOk` says each is below 32000 as an unsigned
  word, which for a 32-bit word is the same as being in `[0, 32000)` signed.
-/
import Idealize.ShloMosaic.PureOps.Ideal
import Idealize.ShloMosaic.Lib.ValueIdx

noncomputable section

namespace Cert.Spec

open Idealize.ShloMosaic Idealize.ShloMosaic.ValueIdx

/-- The probabilities' shape, the labels' shape, and the scalar shape. -/
abbrev SP : Shape := ⟨2, ![8192, 32000]⟩
abbrev SL : Shape := ⟨1, ![8192]⟩
abbrev S0 : Shape := ⟨0, ![]⟩

/-- Every label is a column number of the table. -/
def LabelsOk (lab : IVec SL 32) : Prop := ∀ r : Fin 8192, (lab (ix1 r)).toNat < 32000

/-- The clamp threshold, as an extended real. -/
abbrev clampC : EReal := Ideal.ofBits .f32 0x322BCC77#32

/-- Row `r`'s labelled entry. -/
def picked (p : FVec Ideal SP .f32) (lab : IVec SL 32) (h : LabelsOk lab) (r : Fin 8192) : EReal :=
  p (ix2 r ⟨(lab (ix1 r)).toNat, h r⟩)

/-- Row `r`'s term: the log of its labelled entry, clamped from below. -/
def rowLL (p : FVec Ideal SP .f32) (lab : IVec SL 32) (h : LabelsOk lab) (r : Fin 8192) : EReal :=
  Ideal.log (max (picked p lab h r) clampC)

/-- The rows' terms as a vector. -/
def llVec (p : FVec Ideal SP .f32) (lab : IVec SL 32) (h : LabelsOk lab) : FVec Ideal SL .f32 :=
  fun j => rowLL p lab h ⟨(j 0).val, (j 0).isLt⟩

/-- The loss of a vector of per-row terms: minus their mean, as the host computes it (sum from zero, divide by 8192,
    negate). Both programs end in these three operations; they are never opened. -/
def loss (v : FVec Ideal SL .f32) (h1 : SL.ReducesTo [0] S0) (h2 : 0 < S0.numel) : FVec Ideal S0 .f32 :=
  Host.negf (Host.divf (Host.reduceAdd v (constant S0 .f32 0x00000000#32) h1 h2) (constant S0 .f32 0x46000000#32))

end Cert.Spec

end
-- ==== Proof.PreDecode.lean ====
/-
  The precondition, decoded: besides the table's entries being finite it says every label is at least 0 and below
  32000 as a signed word, hence below 32000 as an unsigned one.
-/
import proofs.«423377_j20083267076110_2_alg».proof.Defs
import proofs.«423377_j20083267076110_2_alg».proof.Proof.Gen.Pre_finite_inputs
import proofs.«423377_j20083267076110_2_alg».proof.Proof.Spec
import Idealize.ShloMosaic.Lib.ReduceAll
import Idealize.ShloMosaic.Lib.Affine
import Idealize.ShloMosaic.Lib.ValueIdx

noncomputable section

namespace Cert.PreDecode

open Idealize.ShloMosaic Idealize.ShloMosaic.ValueIdx

/-- The scalar shape has exactly one index (the empty one), so an and-reduction onto it sees every entry. -/
instance scalarIdxSubsingleton : Subsingleton Cert.Pre_finite_inputs.S_.Idx :=
  ⟨fun a b => funext fun d => d.elim0⟩

/-- A one-bit word made from a Boolean is 1 exactly when the Boolean is true. -/
theorem bit_of_bool (b : Bool) (hb : BitVec.ofBool b = 1#1) : b = true := by
  cases b
  · exact absurd hb (by decide)
  · rfl

/-- A 32-bit word whose signed value lies in [0, 32000) has that same value unsigned: a nonnegative signed value
    means the top bit is clear, so the signed and unsigned readings agree. -/
theorem toNat_lt_of_signed_range (w : BitVec 32) (hlo : IntOp.cmpi .sge w 0#32 = 1#1)
    (hhi : IntOp.cmpi .slt w 32000#32 = 1#1) : w.toNat < 32000 := by
  have a : (0#32).sle w = true := bit_of_bool _ hlo
  have b : w.slt 32000#32 = true := bit_of_bool _ hhi
  have a' : (0 : Int) ≤ w.toInt := by
    have := a
    simp only [BitVec.sle, decide_eq_true_eq] at this
    simpa using this
  have b' : w.toInt < 32000 := by
    have := b
    simp only [BitVec.slt, decide_eq_true_eq] at this
    simpa using this
  rw [BitVec.toInt_eq_toNat_cond] at a' b'
  have hw := w.isLt
  split at a' <;> omega

/-- Where the precondition holds, every label is a column number. -/
theorem labels_ok_of_pre {F : FTy → Type} [FloatOps F]
    (p : FVec F Cert.Pre_finite_inputs.S8192x32000 .f32) (lab : IVec Cert.Pre_finite_inputs.S8192 32)
    (h : Cert.Pre_finite_inputs.fn (F := F) p lab = fun _ => 1#1) : Cert.Spec.LabelsOk lab := by
  intro r
  -- the precondition's one output bit is the conjunction of three and-reductions
  have e := congrFun h ValueIdx.ix0
  dsimp only [Cert.Pre_finite_inputs.fn] at e
  obtain ⟨h7, h10⟩ := IntOp.andi_eq_one.1 e
  obtain ⟨-, h6⟩ := IntOp.andi_eq_one.1 h7
  -- each and-reduction being 1 says its operand is 1 at every index, in particular at row r
  have g0 := Host.reduce_andi_all _ _ _ _ _ h6 (ix1 r)
  have g1 := Host.reduce_andi_all _ _ _ _ _ h10 (ix1 r)
  -- at row r the two compares are of the label against the broadcast constants 0 and 32000
  exact toNat_lt_of_signed_range (lab (ix1 r)) g0 g1

end Cert.PreDecode

end
-- ==== Proof.RefValue.lean ====
/-
  The reference read as a value: `take_along_axis` picks, in each row, the entry at the row's label (a label that is a
  column number is neither wrapped nor out of range, so the fill value is never selected), and the rest of the program
  is the clamp, the log and the mean.
-/
import proofs.«423377_j20083267076110_2_alg».proof.Defs
import proofs.«423377_j20083267076110_2_alg».proof.Proof.Gen.ReferenceIdeal.Read
import proofs.«423377_j20083267076110_2_alg».proof.Proof.Spec
import Idealize.ShloMosaic.Lib.ValueIdx
import Idealize.ShloMosaic.Lib.StableHlo.Predicate

noncomputable section

namespace Cert.ReferenceIdeal.RefValue

open Cert.ReferenceIdeal Cert.ReferenceIdeal.Gen Cert.ReferenceIdeal.Read
open Idealize.ShloMosaic Idealize.ShloMosaic.ValueIdx

/-- An and-reduce of a mask that is 1 everywhere, from the initial value 1, is 1 at every index. -/
theorem reduce_and_all_one {s t u : Shape} {axes : List (Fin s.rank)} (x : IVec s 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  unfold Host.reduce
  rw [hi]
  generalize ((List.finRange s.numel).filter fun n => h.drop (s.rowMajor.symm n) = j) = l
  have h11 : IntOp.andi (1#1) (1#1) = 1#1 := by decide
  induction l with
  | nil => rfl
  | cons a l ih => rw [List.foldl_cons, hx, h11]; exact ih

/-- The gather's dimension numbers: rows are a batching axis, the column axis is collapsed and indexed. -/
abbrev gd : GatherDims S8192x32000 S8192x1x1 S8192x1 := gather_S8192x32000_S8192x1x1_S8192x1_n_1_0_0_1_2_11

/-- The start-indices index a result index of the gather reads. -/
abbrev gIdx (j : S8192x1.Idx) : S8192x1x1.Idx :=
  ix3 (⟨(j 0).val, idx2_lt0 j⟩ : Fin 8192) (⟨(j 1).val, idx2_lt1 j⟩ : Fin 1) (⟨0, Nat.one_pos⟩ : Fin 1)

/-- The gather read at a result index `(r, 0)`: row `r` of the table at the column its start index names, read signed
    and clamped into the row. -/
theorem gather_apply {α : Type} {w : Nat} (x : S8192x32000.Idx → α) (idx : IVec S8192x1x1 w) (j : S8192x1.Idx) :
    Host.gather gd x idx j
      = x (ix2 (⟨(j 0).val, idx2_lt0 j⟩ : Fin 8192) (⟨min (idx (gIdx j)).toInt.toNat 31999, by omega⟩ : Fin 32000)) := by
  unfold Host.gather
  congr 1
  funext a
  refine Fin.ext ?_
  match a with
  | ⟨0, _⟩ =>
    show gd.start j idx 0 + gd.batchCoord j 0 + gd.offCoord j 0 = (j 0).val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gd.operandBatchingDims from List.mem_singleton.mpr rfl)]
    rfl
  | ⟨1, _⟩ =>
    show gd.start j idx 1 + gd.batchCoord j 1 + gd.offCoord j 1 = min (idx (gIdx j)).toInt.toNat 31999
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gd.startIndexMap from List.mem_singleton.mpr rfl)]
    have hsi : gd.siIdx j ⟨List.idxOf (1 : Fin 2) gd.startIndexMap,
        List.idxOf_lt_length_iff.2 (List.mem_singleton.mpr rfl)⟩ = gIdx j := by
      funext b; refine Fin.ext ?_
      match b with
      | ⟨0, _⟩ => rfl
      | ⟨1, _⟩ => rfl
      | ⟨2, _⟩ => rfl
    rw [hsi]
    rfl

/-- Every label, read through the labels' column, is a column number. -/
theorem lab_lt (x1 : (⟨S8192, .i32⟩ : BufTy).Contents (Elt Ideal)) (h : Cert.Spec.LabelsOk x1) (i : S8192x1.Idx) :
    (x1 (idx_main_v0 i)).toNat < 32000 := by
  have e : idx_main_v0 i = ix1 (⟨(i 0).val, (i 0).isLt⟩ : Fin 8192) := by
    funext a
    match a with
    | ⟨0, _⟩ => rfl
  rw [e]
  exact h ⟨(i 0).val, (i 0).isLt⟩

/-- A label that is a column number is not negative, so the wrap-around select keeps it. -/
theorem v4_eq (x1 : (⟨S8192, .i32⟩ : BufTy).Contents (Elt Ideal)) (h : Cert.Spec.LabelsOk x1) (i : S8192x1.Idx) :
    val_main_call0_v4 (F := Ideal) x1 i = x1 (idx_main_v0 i) := by
  have hl := lab_lt x1 h i
  rw [val_main_call0_v4_apply, val_main_call0_v1_apply, val_main_v0_apply, val_main_call0_v0_apply,
    val_main_call0_c_apply]
  have hc : ¬ IntOp.cmpi .slt (x1 (idx_main_v0 i)) 0#32 = 1#1 := by
    rw [StableHlo.Predicate.slt_iff_toNat (by omega) (by decide)]
    exact Nat.not_lt_zero _
  exact if_neg hc

/-- The start indices of the gather are the labels. -/
theorem v5_eq (x1 : (⟨S8192, .i32⟩ : BufTy).Contents (Elt Ideal)) (h : Cert.Spec.LabelsOk x1) (i : S8192x1x1.Idx) :
    val_main_call0_v5 (F := Ideal) x1 i = x1 (idx_main_v0 (idx_main_call0_v5 i)) := by
  rw [val_main_call0_v5_apply, v4_eq x1 h]

/-- Every start index is in range: the in-range test is 1 at every index. -/
theorem v11_eq (x1 : (⟨S8192, .i32⟩ : BufTy).Contents (Elt Ideal)) (h : Cert.Spec.LabelsOk x1) (i : S8192x1x1.Idx) :
    val_main_call0_v11 (F := Ideal) x1 i = 1#1 := by
  have hl := lab_lt x1 h (idx_main_call0_v5 i)
  rw [val_main_call0_v11_apply, val_main_call0_v7_apply, val_main_call0_v10_apply, v5_eq x1 h,
    val_main_call0_v6_apply, val_main_call0_c_2_apply, val_main_call0_v9_apply, val_main_call0_v8_apply,
    val_main_call0_c_1_apply, IntOp.andi_eq_one]
  constructor
  · rw [StableHlo.Predicate.sge_iff_toNat (by omega) (by decide)]
    exact Nat.zero_le _
  · rw [StableHlo.Predicate.sle_iff_toNat (by omega) (by decide)]
    show _ ≤ 31999
    omega

/-- So the reduced mask is 1 at every index: the fill value is never selected. -/
theorem v12_eq (x1 : (⟨S8192, .i32⟩ : BufTy).Contents (Elt Ideal)) (h : Cert.Spec.LabelsOk x1) (i : S8192x1.Idx) :
    val_main_call0_v12 (F := Ideal) x1 i = 1#1 := by
  unfold val_main_call0_v12
  exact reduce_and_all_one _ _ _ _ (v11_eq x1 h) (fun k => rfl) i

/-- The gathered entry of row `r` is the row's labelled entry. -/
theorem v13_eq (x0 : (⟨S8192x32000, .f32⟩ : BufTy).Contents (Elt Ideal)) (x1 : (⟨S8192, .i32⟩ : BufTy).Contents (Elt Ideal))
    (h : Cert.Spec.LabelsOk x1) (i : S8192x1.Idx) (r : Fin 8192) (hr : (i 0).val = r.val) :
    val_main_call0_v13 (F := Ideal) x0 x1 i = Cert.Spec.picked x0 x1 h r := by
  have hrow : idx_main_v0 (idx_main_call0_v5 (gIdx i)) = ix1 r := by
    funext a
    match a with
    | ⟨0, _⟩ =>
      refine Fin.ext ?_
      show (((i 0).val * 1 + (i 1).val) * 1 + 0) / 1 = r.val
      have := idx2_lt1 i
      omega
  have hl := h r
  have hti : (x1 (ix1 r)).toInt = ((x1 (ix1 r)).toNat : Int) :=
    StableHlo.Predicate.toInt_eq_toNat_of_lt (by omega)
  unfold val_main_call0_v13 Cert.Spec.picked
  refine (gather_apply x0 _ i).trans ?_
  congr 1
  funext a
  match a with
  | ⟨0, _⟩ => exact Fin.ext hr
  | ⟨1, _⟩ =>
    refine Fin.ext ?_
    show min (val_main_call0_v5 (F := Ideal) x1 (gIdx i)).toInt.toNat 31999 = (x1 (ix1 r)).toNat
    rw [v5_eq x1 h, hrow, hti, Int.toNat_natCast]
    omega

/-- Index by index, the logged vector is the vector of the rows' terms. -/
theorem v5_vec_eq (x0 : (⟨S8192x32000, .f32⟩ : BufTy).Contents (Elt Ideal)) (x1 : (⟨S8192, .i32⟩ : BufTy).Contents (Elt Ideal))
    (h : Cert.Spec.LabelsOk x1) : val_main_v5 (F := Ideal) x0 x1 = Cert.Spec.llVec x0 x1 h := by
  funext j
  rw [val_main_v5_apply, val_main_v4_apply, val_main_v2_apply, val_main_v1_apply, v12_eq x1 h, select_one,
    val_main_v3_apply, val_main_cst_apply, Ideal.hostUnary_log_def, Ideal.maximumf_def, Ideal.ofBits_def,
    v13_eq x0 x1 h (idx_main_v2 j) ⟨(j 0).val, (j 0).isLt⟩ (by show (j 0).val / 1 = (j 0).val; exact Nat.div_one _)]
  rfl

/-- The reference's result is the loss of the rows' terms, when every label is a column number. -/
theorem result_eq (x0 : (⟨S8192x32000, .f32⟩ : BufTy).Contents (Elt Ideal)) (x1 : (⟨S8192, .i32⟩ : BufTy).Contents (Elt Ideal))
    (h : Cert.Spec.LabelsOk x1) :
    val_main_v8 (F := Ideal) x0 x1 = Cert.Spec.loss (Cert.Spec.llVec x0 x1 h) reducesTo_S8192_S_d0 h_S_ := by
  unfold val_main_v8 val_main_v7 val_main_v6
  rw [v5_vec_eq x0 x1 h]
  rfl

end Cert.ReferenceIdeal.RefValue

end
-- ==== Proof.Blocks.lean ====
/-
  Where the kernel's input blocks sit in the argument arrays. The grid is 16 row tiles by 5 column tiles, point
  `t = 5·i + j`. At point `t` the label block is rows `[512·i, 512·i + 512)` of the labels (viewed as a column),
  and the probability block is those rows and columns `[6400·j, 6400·j + 6400)` of the table.
-/
import proofs.«423377_j20083267076110_2_alg».proof.Defs
import proofs.«423377_j20083267076110_2_alg».proof.Proof.Gen.KernelIdeal.Frame
import Idealize.ShloMosaic.Lib.ValueIdx
import Idealize.ShloMosaic.Lib.Pipeline.Value
import Idealize.ShloMosaic.Lib.StableHlo.Run

noncomputable section

namespace Cert.KernelIdeal.Blocks

open Cert.KernelIdeal Cert.KernelIdeal.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

theorem N80 : cfg0.N = 80 := N_0

/-- The row of the table that local row `r` of point `t`'s blocks is. -/
def grow (t : Fin cfg0.N) (r : Fin 512) : Fin 8192 :=
  ⟨512 * (t.val / 5) + r.val, by have h : t.val < 80 := lt_of_lt_of_eq t.isLt N80; have := r.isLt; omega⟩

/-- The column of the table that local column `q` of point `t`'s probability block is. -/
def gcol (t : Fin cfg0.N) (q : Fin 6400) : Fin 32000 :=
  ⟨6400 * (t.val % 5) + q.val, by have := q.isLt; have := Nat.mod_lt t.val (show 0 < 5 by decide); omega⟩

/-! ## The block indices over the grid

Point `t = 5·i + j` has row tile `i = t / 5` and column tile `j = t % 5`. The label window's index map is
`(i, j) ↦ (i, 0)` and the probability window's is `(i, j) ↦ (i, j)`; both are decided once, over all 80 points. -/

/-- The label window's block index at point `t` is `(t / 5, 0)`. -/
theorem idx_lab : ∀ t : Fin cfg0.N, win0_0.index t 0 = t.val / 5 ∧ win0_0.index t 1 = 0 :=
  (by decide +kernel : ∀ t : Fin grid0.N, _)

/-- The probability window's block index at point `t` is `(t / 5, t % 5)`. -/
theorem idx_probs : ∀ t : Fin cfg0.N, win0_1.index t 0 = t.val / 5 ∧ win0_1.index t 1 = t.val % 5 :=
  (by decide +kernel : ∀ t : Fin grid0.N, _)

/-! ## The labels as a column

The label window reads an `[8192, 1]` array which is the `[8192]` labels reshaped. A reshape keeps the row-major
position, and position `i·1 + 0` of the column is position `i` of the labels. -/

/-- What the column array holds when the kernel starts: the labels, reshaped to `[8192, 1]`. -/
theorem V_col (c : Dev nD) :
    (V m c main_v0 : S8192x1.Idx → Elt F .i32)
      = shapeCast S8192x1 (m ((c.tc : Thread nD τ).loc main_arg1)) Facts₀.shapeCasts_S8192_S8192x1 := by
  show StableHlo.after hostOps0 (fun b => m (c, b)) (Proc.devRef .tc main_v0) = _
  after_results
  rfl

/-- The column at row `i` (its one column `z`) is entry `i` of the vector it reshapes. -/
theorem col_apply (x : S8192.Idx → Elt F .i32) (h : S8192.ShapeCasts S8192x1) (i : Fin 8192) (z : Fin 1) :
    shapeCast S8192x1 x h (ix2 i z) = x (ix1 i) := by
  refine shapeCast_apply x h (ix2 i z) (ix1 i) ?_
  rw [Shape.rowMajor_val_two, Shape.rowMajor_val_one]
  show i.val = i.val * 1 + z.val
  have := z.isLt
  omega

/-! ## The two block reads

Coordinate `a` of a block entry in its array is (block index)·(block size) + (coordinate inside the block). -/

/-- The label block at point `t`, row `r`: the label of table row `grow t r`. -/
theorem lab_blk (c : Dev nD) (t : Fin cfg0.N) (r : Fin 512) :
    (iblk m c 0 t : Vec F S512x1 .i32) (ix2 r (0 : Fin 1)) = m ((c.tc : Thread nD τ).loc main_arg1) (ix1 (grow t r)) := by
  unfold iblk
  rw [View.read_apply]
  show V m c main_v0 _ = _
  rw [V_col, ← col_apply (m ((c.tc : Thread nD τ).loc main_arg1)) Facts₀.shapeCasts_S8192_S8192x1 (grow t r) (0 : Fin 1)]
  refine congrArg _ ?_
  funext a
  apply Fin.ext
  match a with
  | ⟨0, _⟩ => show win0_0.index t 0 * 512 + 1 * r.val = 512 * (t.val / 5) + r.val; rw [(idx_lab t).1]; omega
  | ⟨1, _⟩ => show win0_0.index t 1 * 1 + 1 * 0 = 0; rw [(idx_lab t).2]

/-- The probability block at point `t`, entry `(r, q)`: the table at `(grow t r, gcol t q)`. -/
theorem probs_blk (c : Dev nD) (t : Fin cfg0.N) (r : Fin 512) (q : Fin 6400) :
    (iblk m c 1 t : Vec F S512x6400 .f32) (ix2 r q) = m ((c.tc : Thread nD τ).loc main_arg0) (ix2 (grow t r) (gcol t q)) := by
  unfold iblk
  rw [View.read_apply]
  show V m c main_arg0 _ = _
  rw [V_main_arg0]
  refine congrArg _ ?_
  funext a
  apply Fin.ext
  match a with
  | ⟨0, _⟩ => show win0_1.index t 0 * 512 + 1 * r.val = 512 * (t.val / 5) + r.val; rw [(idx_probs t).1]; omega
  | ⟨1, _⟩ => show win0_1.index t 1 * 6400 + 1 * q.val = 6400 * (t.val % 5) + q.val; rw [(idx_probs t).2]; omega

end Cert.KernelIdeal.Blocks

end
-- ==== Proof.MaskedRow.lean ====
/-
  One row of a "gather by mask". A row of probabilities is swept in consecutive chunks of columns; in each chunk the
  entries whose column number equals the row's label are kept and all others replaced by zero, the chunk is summed,
  and the sum is added to a running total. Since at most one column of the whole row carries the label, the running
  total after the columns `[0, C)` is the labelled entry once `C` has passed the label and zero before: the
  invariant `acc = if L < C then P else 0`. No property of the extended reals beyond `0 + x = x` and `x + 0 = x`
  is used, so nothing is asked of the entries (they may be infinite).
-/
import Idealize.ShloMosaic.PureOps.Ideal
import Idealize.ShloMosaic.Lib.ValueIdx
import Idealize.ShloMosaic.Lib.StableHlo.Predicate

noncomputable section

namespace Cert.MaskedRow

open Idealize.ShloMosaic

/-- A column number `base + l` as a 32-bit word does not wrap while the chunk stays below `2^32`. -/
theorem toNat_col (base : BitVec 32) (l n : ℕ) (hl : l < n) (hwrap : base.toNat + n ≤ 2 ^ 32) :
    (IntOp.addi base (BitVec.ofNat 32 l)).toNat = base.toNat + l := by
  show (base + BitVec.ofNat 32 l).toNat = _
  rw [BitVec.toNat_add, BitVec.toNat_ofNat]
  have h1 : l % 2 ^ 32 = l := Nat.mod_eq_of_lt (by omega)
  rw [h1]
  exact Nat.mod_eq_of_lt (by omega)

/-- The kept entry of a column: the entry where the column number is the label, zero elsewhere. -/
theorem select_col (base lab : BitVec 32) (l n : ℕ) (hl : l < n) (hwrap : base.toNat + n ≤ 2 ^ 32) (a : EReal) :
    Scalar.select (IntOp.cmpi .eq (IntOp.addi base (BitVec.ofNat 32 l)) lab) a (0 : EReal)
      = if base.toNat + l = lab.toNat then a else 0 := by
  unfold Scalar.select
  by_cases h : base.toNat + l = lab.toNat
  · rw [if_pos h, if_pos]
    refine StableHlo.Predicate.cmpi_eq_iff.mpr (BitVec.eq_of_toNat_eq ?_)
    rw [toNat_col base l n hl hwrap, h]
  · rw [if_neg h, if_neg]
    intro hc
    have := StableHlo.Predicate.cmpi_eq_iff.mp hc
    exact h (by rw [← this, toNat_col base l n hl hwrap])

/-- THE CHUNK STEP. With the running total at `if L < C then P else 0`, adding the masked sum of the chunk of `n`
    columns starting at `C` leaves it at `if L < C + n then P else 0`, provided the chunk's entry at the label's
    column (if the label falls in the chunk) is `P`. -/
theorem chunk_step (P acc : EReal) (L C n : ℕ) (base lab : BitVec 32) (x : Fin n → EReal)
    (hbase : base.toNat = C) (hlab : lab.toNat = L) (hwrap : C + n ≤ 2 ^ 32)
    (hacc : acc = if L < C then P else 0)
    (hx : ∀ l : Fin n, C + l.val = L → x l = P) :
    acc + ∑ l : Fin n, Scalar.select (IntOp.cmpi .eq (IntOp.addi base (BitVec.ofNat 32 l.val)) lab) (x l) (0 : EReal)
      = if L < C + n then P else 0 := by
  have hsel : ∀ l : Fin n, Scalar.select (IntOp.cmpi .eq (IntOp.addi base (BitVec.ofNat 32 l.val)) lab) (x l) (0 : EReal)
      = if C + l.val = L then x l else 0 := fun l => by
    rw [select_col base lab l.val n l.isLt (by rw [hbase]; exact hwrap), hbase, hlab]
  rw [Finset.sum_congr rfl fun l _ => hsel l, hacc]
  by_cases h1 : L < C
  · -- the label's column is behind: the chunk adds nothing
    rw [if_pos h1, if_pos (by omega), Finset.sum_eq_zero, add_zero]
    intro l _
    rw [if_neg (by omega)]
  · rw [if_neg h1, zero_add]
    by_cases h2 : L < C + n
    · -- the label's column is in this chunk: the one kept entry
      rw [if_pos h2, Finset.sum_eq_single (⟨L - C, by omega⟩ : Fin n)]
      · rw [if_pos (by show C + (L - C) = L; omega)]
        exact hx _ (by show C + (L - C) = L; omega)
      · intro l _ hne
        rw [if_neg]
        intro hl
        exact hne (Fin.ext (by show l.val = L - C; omega))
      · intro h; exact absurd (Finset.mem_univ _) h
    · -- still ahead
      rw [if_neg h2, Finset.sum_eq_zero]
      intro l _
      rw [if_neg (by have := l.isLt; omega)]

end Cert.MaskedRow

end
-- ==== Proof.Chunk.lean ====
/-
  One chunk of the sweep, as the kernel body computes it. Each of the ten chunks of a column tile does the same
  thing to the running total `acc` (a [512, 1] column): compare the chunk's column numbers `b + l`, `l < 640`, with
  each row's label, keep the matching entries of the [512, 640] chunk `x` and replace the others by zero, sum each
  row, and add the row sums to `acc`. The body spells the ten chunks with slightly different bookkeeping of the
  chunk's first column `b`; all are the one function `step` below at `b = 6400·j + 640·k`.
  Read at the extended reals, row `r` of `step b lab x acc` is `acc r + ∑ l, [b + l = lab r] · x r l`.
-/
import proofs.«423377_j20083267076110_2_alg».proof.Defs
import proofs.«423377_j20083267076110_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Chunk

open Cert.KernelIdeal Cert.KernelIdeal.Gen
open Idealize.ShloMosaic Idealize.ShloMosaic.ValueIdx

variable {F : FTy → Type} [FloatOps F]

/-- The first column of chunk `k` of column tile `j`, as the body computes the word: `j·6400 + k·640`. -/
def base (j : BitVec 32) (k : Nat) : BitVec 32 := Scalar.addi (Scalar.muli j 6400#32) (Scalar.muli (BitVec.ofNat 32 k) 640#32)

/-- One chunk's update of the running total. -/
def step (b : BitVec 32) (lab : IVec S512x1 32) (x : Vec F S512x640 .f32) (acc : Vec F S512x1 .f32) : FVec F S512x1 .f32 :=
  shapeCast S512x1
    (addf acc
      (shapeCast S512x1
        (multiReduction .add [1] S512
          (select
            (cmpi .eq
              (broadcastTo S512x640 (addi (broadcast S1x640 b) (iota .tc S1x640 32 [1] iota_S1x640_d1_w32)) broadcasts_S1x640_S512x640)
              (broadcastTo S512x640 lab broadcasts_S512x1_S512x640))
            x (broadcast S512x640 (Scalar.ofBits .f32 0x00000000#32)))
          0x00000000#32 reduces_S512x640_S512 (.inl rfl) rfl)
        shapeCasts_S512_S512x1))
    shapeCasts_S512x1_S512x1

/-! ## The ten payloads are `step` -/

theorem pay5_eq (i : grid0.Coords) (v3 : Vec F S512x1 .i32) (x : Vec F S512x640 .f32) (acc : Vec F S512x1 .f32) :
    k0_pay5 i v3 x acc = step (base (BitVec.ofNat 32 (i 1).val) 0) (k0_pay4 v3) x acc := rfl

theorem pay7_eq (i : grid0.Coords) (v3 : Vec F S512x1 .i32) (x : Vec F S512x640 .f32) (acc : Vec F S512x1 .f32) :
    k0_pay7 x (k0_pay6 i v3) acc = step (base (BitVec.ofNat 32 (i 1).val) 1) (k0_pay4 v3) x acc := rfl

theorem pay8_eq (j : BitVec 32) (lab : IVec S512x1 32) (x : Vec F S512x640 .f32) (acc : Vec F S512x1 .f32) :
    k0_pay8 j lab x acc = step (base j 2) lab x acc := rfl

theorem pay10_eq (j : BitVec 32) (lab : IVec S512x1 32) (x : Vec F S512x640 .f32) (acc : Vec F S512x1 .f32) :
    k0_pay10 lab x (iota .tc S1x640 32 [1] iota_S1x640_d1_w32) (k0_pay9 j) acc = step (base j 3) lab x acc := rfl

theorem pay11_eq (j : BitVec 32) (lab : IVec S512x1 32) (x : Vec F S512x640 .f32) (acc : Vec F S512x1 .f32) :
    k0_pay11 j lab x acc = step (base j 4) lab x acc := rfl

theorem pay12_eq (j : BitVec 32) (lab : IVec S512x1 32) (x : Vec F S512x640 .f32) (acc : Vec F S512x1 .f32) :
    k0_pay12 j lab (Scalar.muli 5#32 640#32) x 6400#32 acc = step (base j 5) lab x acc := rfl

theorem pay13_eq (j : BitVec 32) (lab : IVec S512x1 32) (x : Vec F S512x640 .f32) (acc : Vec F S512x1 .f32) :
    k0_pay13 j lab x acc = step (base j 6) lab x acc := rfl

theorem pay14_eq (j : BitVec 32) (lab : IVec S512x1 32) (x : Vec F S512x640 .f32) (acc : Vec F S512x1 .f32) :
    k0_pay14 j lab (Scalar.muli 7#32 640#32) x acc = step (base j 7) lab x acc := rfl

theorem pay15_eq (j : BitVec 32) (lab : IVec S512x1 32) (x : Vec F S512x640 .f32) (acc : Vec F S512x1 .f32) :
    k0_pay15 j lab x acc = step (base j 8) lab x acc := rfl

theorem pay1_eq (j : BitVec 32) (lab : IVec S512x1 32) (x : Vec F S512x640 .f32) (acc : Vec F S512x1 .f32) :
    k0_pay1 j lab x acc = step (base j 9) lab x acc := rfl

/-! ## The step, row by row, at the extended reals -/

/-- A [512, 1] column broadcast along the second axis reads, at `(r, l)`, the column at `(r, 0)`. -/
theorem bcast_col_apply {α : Type} (v : S512x1.Idx → α) (r : Fin 512) (l : Fin 640) :
    broadcastTo S512x640 v broadcasts_S512x1_S512x640 (ix2 r l) = v (ix2 r (0 : Fin 1)) := by
  refine broadcastTo_apply v broadcasts_S512x1_S512x640 (ix2 r l) (ix2 r (0 : Fin 1)) fun a => ?_
  match a with
  | ⟨0, _⟩ => show r.val = if (512 : Nat) = 1 then 0 else r.val; rw [if_neg (by decide)]
  | ⟨1, _⟩ => show 0 = if (1 : Nat) = 1 then 0 else l.val; rw [if_pos rfl]

/-- The index the row sum inserts at column `l` of row `r`. -/
theorem lift_row (r : Fin 512) (l : Fin 640) :
    (reduces_S512x640_S512 : S512x640.Reduces [1] S512).lift (ix1 r) l = ix2 r l :=
  funext fun a => Fin.ext (match a with | ⟨0, _⟩ => rfl | ⟨1, _⟩ => rfl)

/-- Row `r` of one chunk's update: the running total plus the sum, over the chunk's 640 columns, of the entries
    whose column number `b + l` is the row's label (zero elsewhere). -/
theorem step_apply (b : BitVec 32) (lab : IVec S512x1 32) (x : Vec Ideal S512x640 .f32) (acc : Vec Ideal S512x1 .f32)
    (r : Fin 512) :
    step (F := Ideal) b lab x acc (ix2 r (0 : Fin 1))
      = acc (ix2 r (0 : Fin 1)) + ∑ l : Fin 640,
          Scalar.select (IntOp.cmpi .eq (IntOp.addi b (BitVec.ofNat 32 l.val)) (lab (ix2 r (0 : Fin 1)))) (x (ix2 r l)) (0 : EReal) := by
  unfold step
  rw [shapeCast_self, addf_apply]
  congr 1
  rw [shapeCast_apply _ shapeCasts_S512_S512x1 (ix2 r (0 : Fin 1)) (ix1 r)
    (by rw [Shape.rowMajor_val_one, Shape.rowMajor_val_two]; show r.val = r.val * 1 + 0; omega)]
  refine (Ideal.multiReduction_add_single (φ := .f32) _ _ reduces_S512x640_S512 _ _ (ix1 r)).trans ?_
  refine Finset.sum_congr rfl fun (l : Fin 640) _ => ?_
  rw [lift_row r l, select_apply]
  show Scalar.select (IntOp.cmpi .eq
      (broadcastTo S512x640 (addi (broadcast S1x640 b) (iota .tc S1x640 32 [1] iota_S1x640_d1_w32)) broadcasts_S1x640_S512x640 (ix2 r l))
      (broadcastTo S512x640 lab broadcasts_S512x1_S512x640 (ix2 r l))) (x (ix2 r l)) (Ideal.ofBits .f32 0x00000000#32) = _
  rw [broadcastTo_1b_ab_apply, bcast_col_apply, Ideal.ofBits_zero_f32]
  show Scalar.select (IntOp.cmpi .eq (IntOp.addi b (iota .tc S1x640 32 [1] iota_S1x640_d1_w32 (ix2 (0 : Fin 1) l))) _) _ _ = _
  rw [iota_single_apply]

end Cert.KernelIdeal.Chunk

end
-- ==== Proof.Cases.lean ====
/-
  What one grid point leaves behind, case by case. The body sweeps its [512, 6400] probability block in ten chunks
  of 640 columns, each chunk updating the running total held in the scratch column; every update overwrites the
  whole scratch, so what the point leaves there is the last update's value, which is the ten updates composed:
  `sweep`. At the first column tile of a row tile the sweep starts from zero, elsewhere from what the point before
  left; at the last column tile the output block receives `log (max total c)`.
-/
import proofs.«423377_j20083267076110_2_alg».proof.Defs
import proofs.«423377_j20083267076110_2_alg».proof.Proof.Gen.KernelIdeal.Frame
import proofs.«423377_j20083267076110_2_alg».proof.Proof.Chunk
import Idealize.ShloMosaic.Lib.Pipeline.Value
import Idealize.ShloMosaic.Lib.Tactic

set_option maxRecDepth 16384

noncomputable section

namespace Cert.KernelIdeal.Cases

open Cert.KernelIdeal Cert.KernelIdeal.Gen Cert.KernelIdeal.Chunk
open Idealize.ShloMosaic Idealize.ShloMosaic.TcCoe Idealize.SL.Sem Idealize.ShloMosaic.Tactic Idealize.ShloMosaic.ValueIdx

variable {F : FTy → Type} [FloatOps F]

theorem hz : (![0, 0] : Fin 2 → Nat) = fun _ => 0 := funext fun a => by fin_cases a <;> rfl

/-- Chunk `k` of a probability block: its columns `[640·k, 640·k + 640)`. -/
def chunkOf (x1 : Vec F S512x6400 .f32) (k : Nat) (hk : k < 10) : Vec F S512x640 .f32 :=
  View.ld x1 (Rect.unit ![0, 640 * k] ![512, 640]
    (Rect.inb₂ (d := ![512, 6400]) (by show 0 + 512 ≤ 512; omega) (by show 640 * k + 640 ≤ 6400; omega)))

/-- Chunk `k` at `(r, l)` is the block at `(r, 640·k + l)`. -/
theorem chunkOf_apply (x1 : Vec F S512x6400 .f32) (k : Nat) (hk : k < 10) (r : Fin 512) (l : Fin 640) :
    chunkOf x1 k hk (ix2 r l) = x1 (ix2 r (⟨640 * k + l.val, by have := l.isLt; omega⟩ : Fin 6400)) := by
  unfold chunkOf
  show x1 _ = x1 _
  congr 1
  funext a
  apply Fin.ext
  match a with
  | ⟨0, _⟩ => show 0 + 1 * r.val = r.val; omega
  | ⟨1, _⟩ => show 640 * k + 1 * l.val = 640 * k + l.val; omega

/-- The ten chunk updates of one grid point, first chunk innermost. -/
def sweep (j : BitVec 32) (lab : IVec S512x1 32) (x1 : Vec F S512x6400 .f32) (acc : Vec F S512x1 .f32) : Vec F S512x1 .f32 :=
  step (base j 9) lab (chunkOf x1 9 (by decide))
   (step (base j 8) lab (chunkOf x1 8 (by decide))
    (step (base j 7) lab (chunkOf x1 7 (by decide))
     (step (base j 6) lab (chunkOf x1 6 (by decide))
      (step (base j 5) lab (chunkOf x1 5 (by decide))
       (step (base j 4) lab (chunkOf x1 4 (by decide))
        (step (base j 3) lab (chunkOf x1 3 (by decide))
         (step (base j 2) lab (chunkOf x1 2 (by decide))
          (step (base j 1) lab (chunkOf x1 1 (by decide))
           (step (base j 0) lab (chunkOf x1 0 (by decide)) acc)))))))))

/-- Two of the payloads as the run meets them, their chunk offsets already evaluated to words. -/
theorem pay12_lit (j : BitVec 32) (lab : IVec S512x1 32) (x : Vec F S512x640 .f32) (acc : Vec F S512x1 .f32) :
    k0_pay12 j lab 3200#32 x 6400#32 acc = step (base j 5) lab x acc := rfl
theorem pay14_lit (j : BitVec 32) (lab : IVec S512x1 32) (x : Vec F S512x640 .f32) (acc : Vec F S512x1 .f32) :
    k0_pay14 j lab 4480#32 x acc = step (base j 7) lab x acc := rfl

/-- CASE B (a middle column tile): the scratch ends at the sweep from what the point before left. -/
theorem scratch_B (c : Dev nD) (i : grid0.Coords) (arg2 : Memref sig .tc .vmem S512x1 .i32) (harg2 : arg2.IsWhole) (arg3 : Memref sig .tc .vmem S512x6400 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : ¬cond0_1 i)
    (x0 : Vec F S512x1 .i32) (x1 : Vec F S512x6400 .f32) (xs0 : Vec F S512x1 .f32) :
    sout0_B_0 c i arg2 harg2 arg3 harg3 arg4 harg4 arg5 harg5 hc0 hc1 x0 x1 xs0 = sweep (BitVec.ofNat 32 (i 1).val) (k0_pay4 x0) x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  simp only [View.canon_cons_unit_zero (S := S512x1) hz, View.canon_unit_zero (S := S512x1) hz, View.readCov_cons_toLoadRect,
    View.readCov_unit_zero (S := S512x1) _ hz, View.readAt_eq_ld, harg2.read_unread, harg3.read_unread, harg5.read_unread,
    View.ld_unit_zero (S := S512x1) hz, pay1_eq, pay5_eq, pay7_eq, pay8_eq, pay10_eq, pay11_eq, pay12_lit, pay13_eq, pay14_lit, pay15_eq]
  rfl

/-- CASE A (the first column tile): the scratch is zeroed, then swept. -/
theorem scratch_A (c : Dev nD) (i : grid0.Coords) (arg2 : Memref sig .tc .vmem S512x1 .i32) (harg2 : arg2.IsWhole) (arg3 : Memref sig .tc .vmem S512x6400 .f32) (harg3 : arg3.IsWhole) (arg4 : Memref sig .tc .vmem S512x1 .f32) (harg4 : arg4.IsWhole) (arg5 : Memref sig .tc .vmem S512x1 .f32) (harg5 : arg5.IsWhole) (hc0 : cond0_0 i) (hc1 : ¬cond0_1 i)
    (x0 : Vec F S512x1 .i32) (x1 : Vec F S512x6400 .f32) :
    sout0_A_0 c i arg2 harg2 arg3 harg3 arg4 harg4 arg5 harg5 hc0 hc1 x0 x1 = sweep (BitVec.ofNat 32 (i 1).val) (k0_pay4 x0) x1 (k0_pay3 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  simp only [View.canon_cons_unit_zero (S := S512x1) hz, View.canon_unit_zero (S := S512x1) hz, View.readCov_cons_toLoadRect,
    View.readCov_unit_zero (S := S512x1) _ hz, View.readAt_eq_ld, harg2.read_unread, harg3.read_unread, harg5.read_unread,
    View.ld_unit_zero (S := S512x1) hz, pay1_eq, pay5_eq, pay7_eq, pay8_eq, pay10_eq, pay11_eq, pay12_lit, pay13_eq, pay14_lit, pay15_eq]
  rfl

/-- CASE C (the last column tile): the scratch ends at the sweep from what the point before left, -/
theorem scratch_C (c : Dev nD) (i : grid0.Coords) (arg2 : Memref sig .tc .vmem S512x1 .i32) (harg2 : arg2.IsWhole) (arg3 : Memref sig .tc .vmem S512x6400 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i)
    (x0 : Vec F S512x1 .i32) (x1 : Vec F S512x6400 .f32) (xs0 : Vec F S512x1 .f32) :
    sout0_C_0 c i arg2 harg2 arg3 harg3 arg4 harg4 arg5 harg5 hc0 hc1 x0 x1 xs0 = sweep (BitVec.ofNat 32 (i 1).val) (k0_pay4 x0) x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  simp only [View.canon_cons_unit_zero (S := S512x1) hz, View.canon_unit_zero (S := S512x1) hz, View.readCov_cons_toLoadRect,
    View.readCov_unit_zero (S := S512x1) _ hz, View.readAt_eq_ld, harg2.read_unread, harg3.read_unread, harg5.read_unread,
    View.ld_unit_zero (S := S512x1) hz, pay1_eq, pay5_eq, pay7_eq, pay8_eq, pay10_eq, pay11_eq, pay12_lit, pay13_eq, pay14_lit, pay15_eq]
  rfl

/-- and the output block receives the clamped log of that total. -/
theorem out_C (c : Dev nD) (i : grid0.Coords) (arg2 : Memref sig .tc .vmem S512x1 .i32) (harg2 : arg2.IsWhole) (arg3 : Memref sig .tc .vmem S512x6400 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i)
    (x0 : Vec F S512x1 .i32) (x1 : Vec F S512x6400 .f32) (xs0 : Vec F S512x1 .f32) :
    out0_C_2 c i arg2 harg2 arg3 harg3 arg4 harg4 arg5 harg5 hc0 hc1 x0 x1 xs0 = k0_pay2 (sweep (BitVec.ofNat 32 (i 1).val) (k0_pay4 x0) x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  simp only [View.canon_cons_unit_zero (S := S512x1) hz, View.canon_unit_zero (S := S512x1) hz, View.readCov_cons_toLoadRect,
    View.readCov_unit_zero (S := S512x1) _ hz, View.readAt_eq_ld, harg2.read_unread, harg3.read_unread, harg5.read_unread,
    View.ld_unit_zero (S := S512x1) hz, pay1_eq, pay5_eq, pay7_eq, pay8_eq, pay10_eq, pay11_eq, pay12_lit, pay13_eq, pay14_lit, pay15_eq]
  rfl

end Cert.KernelIdeal.Cases

end
-- ==== Proof.Sweep.lean ====
/-
  The running total across a row tile. Row `r` of the scratch column, after the grid point `t = 5·i + j`, holds the
  row's labelled entry if the label's column is among the columns `[0, 6400·(j+1))` swept so far, and zero otherwise:
  each chunk adds the entries at the label's column only (`Cert.MaskedRow.chunk_step`), the first column tile starts
  from zero, and a later one from what the tile before left. After the last column tile every label below 32000 has
  been passed, so the total is the labelled entry and the output block receives `log (max entry c)`.
-/
import proofs.«423377_j20083267076110_2_alg».proof.Defs
import proofs.«423377_j20083267076110_2_alg».proof.Proof.Gen.KernelIdeal.Frame
import proofs.«423377_j20083267076110_2_alg».proof.Proof.Spec
import proofs.«423377_j20083267076110_2_alg».proof.Proof.Blocks
import proofs.«423377_j20083267076110_2_alg».proof.Proof.MaskedRow
import proofs.«423377_j20083267076110_2_alg».proof.Proof.Chunk
import proofs.«423377_j20083267076110_2_alg».proof.Proof.Cases

set_option maxRecDepth 16384

noncomputable section

namespace Cert.KernelIdeal.Sweep

open Cert.KernelIdeal Cert.KernelIdeal.Gen Cert.KernelIdeal.Blocks Cert.KernelIdeal.Chunk Cert.KernelIdeal.Cases
open Idealize.ShloMosaic Idealize.ShloMosaic.TcCoe Idealize.SL.Sem Idealize.ShloMosaic.ValueIdx

/-! ## One grid point, one row -/

/-- The word the body computes for the first column of chunk `k` of column tile `j` is `6400·j + 640·k`. -/
theorem base_toNat : ∀ (j : Fin 5) (k : Fin 10), (base (BitVec.ofNat 32 j.val) k.val).toNat = 6400 * j.val + 640 * k.val := by
  decide

/-- One chunk moves the invariant `640` columns on. -/
theorem step_inv (j : ℕ) (hj : j < 5) (k : ℕ) (hk : k < 10) (lab : IVec S512x1 32) (x1 : Vec Ideal S512x6400 .f32)
    (acc : Vec Ideal S512x1 .f32) (r : Fin 512) (P : EReal) (L : ℕ)
    (hlab : (lab (ix2 r (0 : Fin 1))).toNat = L)
    (hx : ∀ q : Fin 6400, 6400 * j + q.val = L → x1 (ix2 r q) = P)
    (hacc : acc (ix2 r (0 : Fin 1)) = if L < 6400 * j + 640 * k then P else 0) :
    step (base (BitVec.ofNat 32 j) k) lab (chunkOf x1 k hk) acc (ix2 r (0 : Fin 1))
      = if L < 6400 * j + 640 * (k + 1) then P else 0 := by
  rw [step_apply]
  have h := Cert.MaskedRow.chunk_step P (acc (ix2 r (0 : Fin 1))) L (6400 * j + 640 * k) 640
    (base (BitVec.ofNat 32 j) k) (lab (ix2 r (0 : Fin 1))) (fun l => chunkOf x1 k hk (ix2 r l))
    (base_toNat ⟨j, hj⟩ ⟨k, hk⟩) hlab (by omega) hacc
    (fun l hl => by
      rw [chunkOf_apply]
      exact hx ⟨640 * k + l.val, by have := l.isLt; omega⟩ (by show 6400 * j + (640 * k + l.val) = L; omega))
  rw [h, show 6400 * j + 640 * k + 640 = 6400 * j + 640 * (k + 1) by omega]

/-- The ten chunks of a grid point move it a whole column tile on. -/
theorem sweep_inv (j : ℕ) (hj : j < 5) (lab : IVec S512x1 32) (x1 : Vec Ideal S512x6400 .f32)
    (acc : Vec Ideal S512x1 .f32) (r : Fin 512) (P : EReal) (L : ℕ)
    (hlab : (lab (ix2 r (0 : Fin 1))).toNat = L)
    (hx : ∀ q : Fin 6400, 6400 * j + q.val = L → x1 (ix2 r q) = P)
    (hacc : acc (ix2 r (0 : Fin 1)) = if L < 6400 * j then P else 0) :
    sweep (BitVec.ofNat 32 j) lab x1 acc (ix2 r (0 : Fin 1)) = if L < 6400 * (j + 1) then P else 0 := by
  unfold sweep
  rw [show 6400 * (j + 1) = 6400 * j + 640 * (9 + 1) by omega]
  refine step_inv j hj 9 _ lab x1 _ r P L hlab hx ?_
  refine step_inv j hj 8 _ lab x1 _ r P L hlab hx ?_
  refine step_inv j hj 7 _ lab x1 _ r P L hlab hx ?_
  refine step_inv j hj 6 _ lab x1 _ r P L hlab hx ?_
  refine step_inv j hj 5 _ lab x1 _ r P L hlab hx ?_
  refine step_inv j hj 4 _ lab x1 _ r P L hlab hx ?_
  refine step_inv j hj 3 _ lab x1 _ r P L hlab hx ?_
  refine step_inv j hj 2 _ lab x1 _ r P L hlab hx ?_
  refine step_inv j hj 1 _ lab x1 _ r P L hlab hx ?_
  refine step_inv j hj 0 _ lab x1 _ r P L hlab hx ?_
  rw [hacc, show 6400 * j + 640 * 0 = 6400 * j by omega]

/-! ## The three small payloads at a row -/

theorem pay4_apply (v : Vec Ideal S512x1 .i32) (r : Fin 512) : k0_pay4 (F := Ideal) v (ix2 r (0 : Fin 1)) = v (ix2 r (0 : Fin 1)) := by
  unfold k0_pay4; rw [shapeCast_self]

theorem pay3_apply (r : Fin 512) : k0_pay3 (F := Ideal) (ix2 r (0 : Fin 1)) = 0 := by
  unfold k0_pay3; rw [shapeCast_self]
  show Ideal.ofBits .f32 0x00000000#32 = 0
  exact Ideal.ofBits_zero_f32

theorem pay2_apply (v : Vec Ideal S512x1 .f32) (r : Fin 512) :
    k0_pay2 (F := Ideal) v (ix2 r (0 : Fin 1)) = Ideal.log (max (v (ix2 r (0 : Fin 1))) Cert.Spec.clampC) := rfl

/-! ## Across the grid -/

variable (m : (ℓ : Loc nD τ sig) → Buf (Elt Ideal) ℓ)

/-- The two input blocks of a point, under their literal types. -/
abbrev xlab (c : Dev nD) (t : Fin cfg0.N) : Vec Ideal S512x1 .i32 := iblk m c 0 t
abbrev xprob (c : Dev nD) (t : Fin cfg0.N) : Vec Ideal S512x6400 .f32 := iblk m c 1 t

/-- A point's column tile is `t mod 5`. -/
theorem col_tile : ∀ t : Fin cfg0.N, ((grid0.coords t) 1).val = t.val % 5 :=
  (by decide +kernel : ∀ t : Fin grid0.N, ((grid0.coords t) 1).val = t.val % 5)

/-- Row `r`'s label at point `t`, as a number, and the labelled entry. -/
abbrev labNat (c : Dev nD) (t : Fin cfg0.N) (r : Fin 512) : ℕ :=
  (m ((c.tc : Thread nD τ).loc main_arg1) (ix1 (grow t r))).toNat
abbrev entry (c : Dev nD) (hok : Cert.Spec.LabelsOk (m ((c.tc : Thread nD τ).loc main_arg1))) (t : Fin cfg0.N) (r : Fin 512) : EReal :=
  Cert.Spec.picked (m ((c.tc : Thread nD τ).loc main_arg0)) (m ((c.tc : Thread nD τ).loc main_arg1)) hok (grow t r)

/-- The sweep of point `t` from a total that has passed the columns below `6400·(t mod 5)` has passed those below
    `6400·(t mod 5 + 1)`. -/
theorem point_inv (c : Dev nD) (hok : Cert.Spec.LabelsOk (m ((c.tc : Thread nD τ).loc main_arg1))) (t : Fin cfg0.N) (r : Fin 512)
    (acc : Vec Ideal S512x1 .f32)
    (hacc : acc (ix2 r (0 : Fin 1)) = if labNat m c t r < 6400 * (t.val % 5) then entry m c hok t r else 0) :
    sweep (BitVec.ofNat 32 ((grid0.coords t) 1).val) (k0_pay4 (xlab m c t)) (xprob m c t) acc (ix2 r (0 : Fin 1))
      = if labNat m c t r < 6400 * (t.val % 5 + 1) then entry m c hok t r else 0 := by
  rw [col_tile t]
  refine sweep_inv (t.val % 5) (Nat.mod_lt _ (by decide)) _ _ acc r _ _ ?_ ?_ hacc
  · rw [pay4_apply]; exact congrArg BitVec.toNat (lab_blk m c t r)
  · intro q hq
    rw [show xprob m c t (ix2 r q) = _ from probs_blk m c t r q]
    show _ = Cert.Spec.picked _ _ hok (grow t r)
    unfold Cert.Spec.picked
    congr 2
    exact Fin.ext hq

/-- Within a row tile the rows do not move: a point that is not a row tile's first has the rows of the point before. -/
theorem grow_pred (n : ℕ) (h : n + 1 < cfg0.N) (h0 : ¬(n + 1) % 5 = 0) (r : Fin 512) :
    grow ⟨n, Nat.lt_of_succ_lt h⟩ r = grow ⟨n + 1, h⟩ r :=
  Fin.ext (by show 512 * (n / 5) + r.val = 512 * ((n + 1) / 5) + r.val; omega)

/-- THE INVARIANT: after point `n`, row `r` of the scratch is the labelled entry once the label's column is below
    `6400·(n mod 5 + 1)`, zero before. By induction on the point. -/
theorem scratch_inv (c : Dev nD) (hok : Cert.Spec.LabelsOk (m ((c.tc : Thread nD τ).loc main_arg1))) (n : ℕ) :
    ∀ (h : n < cfg0.N) (r : Fin 512), (outsAt0 m c n h).2 (ix2 r (0 : Fin 1))
      = if labNat m c ⟨n, h⟩ r < 6400 * (n % 5 + 1) then entry m c hok ⟨n, h⟩ r else 0 := by
  induction n with
  | zero =>
    intro h r
    have h0 : (⟨0, h⟩ : Fin cfg0.N).val % 5 = 0 := rfl
    have h1 : ¬(⟨0, h⟩ : Fin cfg0.N).val % 5 = 4 := (by decide : ¬(0 % 5 = 4))
    rw [outsAt0_A m c ⟨0, h⟩ h0 h1]
    dsimp only
    rw [scratch_A (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) _ _ (iblk m c 0 ⟨0, h⟩) (iblk m c 1 ⟨0, h⟩)]
    refine point_inv m c hok ⟨0, h⟩ r _ ?_
    rw [pay3_apply]
    show (0 : EReal) = if _ < 6400 * (0 % 5) then _ else 0
    rw [if_neg (by omega)]
  | succ n ih =>
    intro h r
    have hN : n + 1 < 80 := lt_of_lt_of_eq h N80
    by_cases h0 : (n + 1) % 5 = 0
    · have h1 : ¬(n + 1) % 5 = 4 := by omega
      rw [outsAt0_A m c ⟨n + 1, h⟩ h0 h1]
      dsimp only
      rw [scratch_A (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) _ _ (iblk m c 0 ⟨n + 1, h⟩) (iblk m c 1 ⟨n + 1, h⟩)]
      refine point_inv m c hok ⟨n + 1, h⟩ r _ ?_
      rw [pay3_apply]
      show (0 : EReal) = if _ < 6400 * ((n + 1) % 5) then _ else 0
      rw [h0, if_neg (by omega)]
    · have hprev : (outsAt0 m c n (Nat.lt_of_succ_lt h)).2 (ix2 r (0 : Fin 1))
          = if labNat m c ⟨n + 1, h⟩ r < 6400 * ((n + 1) % 5) then entry m c hok ⟨n + 1, h⟩ r else 0 := by
        rw [ih (Nat.lt_of_succ_lt h) r]
        unfold labNat entry
        rw [grow_pred n h h0 r, show n % 5 + 1 = (n + 1) % 5 by omega]
      by_cases h1 : (n + 1) % 5 = 4
      · rw [outsAt0_C m c ⟨n + 1, h⟩ h0 h1]
        dsimp only
        simp only [Nat.add_sub_cancel]
        rw [scratch_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) _ _ (iblk m c 0 ⟨n + 1, h⟩) (iblk m c 1 ⟨n + 1, h⟩) (outsAt0 m c n (Nat.lt_of_succ_lt h)).2]
        exact point_inv m c hok ⟨n + 1, h⟩ r _ hprev
      · rw [outsAt0_B m c ⟨n + 1, h⟩ h0 h1]
        dsimp only
        simp only [Nat.add_sub_cancel]
        rw [scratch_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) _ _ (iblk m c 0 ⟨n + 1, h⟩) (iblk m c 1 ⟨n + 1, h⟩) (outsAt0 m c n (Nat.lt_of_succ_lt h)).2]
        exact point_inv m c hok ⟨n + 1, h⟩ r _ hprev

/-- At a point of the last column tile the output's staging buffer holds, row by row, the rows' terms. -/
theorem out_block (c : Dev nD) (hok : Cert.Spec.LabelsOk (m ((c.tc : Thread nD τ).loc main_arg1)))
    (t : Fin cfg0.N) (ht : t.val % 5 = 4) (r : Fin 512) :
    (outsAt0 m c t.val t.isLt).1 (ix2 r (0 : Fin 1))
      = Cert.Spec.rowLL (m ((c.tc : Thread nD τ).loc main_arg0)) (m ((c.tc : Thread nD τ).loc main_arg1)) hok (grow t r) := by
  obtain ⟨n, h⟩ := t
  have hN : n < 80 := lt_of_lt_of_eq h N80
  cases n with
  | zero => exact absurd ht (by decide : ¬(0 % 5 = 4))
  | succ n =>
    have h0 : ¬(n + 1) % 5 = 0 := by have : (n + 1) % 5 = 4 := ht; omega
    have h1 : (n + 1) % 5 = 4 := ht
    show (outsAt0 m c (n + 1) h).1 (ix2 r (0 : Fin 1)) = _
    rw [outsAt0_C m c ⟨n + 1, h⟩ h0 h1]
    dsimp only
    simp only [Nat.add_sub_cancel]
    rw [out_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) _ _ (iblk m c 0 ⟨n + 1, h⟩) (iblk m c 1 ⟨n + 1, h⟩) (outsAt0 m c n (Nat.lt_of_succ_lt h)).2]
    rw [pay2_apply]
    unfold Cert.Spec.rowLL
    congr 2
    have hprev : (outsAt0 m c n (Nat.lt_of_succ_lt h)).2 (ix2 r (0 : Fin 1))
        = if labNat m c ⟨n + 1, h⟩ r < 6400 * ((n + 1) % 5) then entry m c hok ⟨n + 1, h⟩ r else 0 := by
      rw [scratch_inv m c hok n (Nat.lt_of_succ_lt h) r]
      unfold labNat entry
      rw [grow_pred n h h0 r, show n % 5 + 1 = (n + 1) % 5 by omega]
    rw [point_inv m c hok ⟨n + 1, h⟩ r _ hprev, h1, if_pos]
    show labNat m c ⟨n + 1, h⟩ r < 6400 * (4 + 1)
    have := hok (grow ⟨n + 1, h⟩ r)
    unfold labNat
    omega

end Cert.KernelIdeal.Sweep

end
-- ==== Proof.KernelValue.lean ====
/-
  The kernel's run read as a value: the [8192, 1] result array of the region holds the rows' terms, and the host
  operations after the region (view as a vector, sum from zero, divide by 8192, negate) turn it into the loss.
-/
import proofs.«423377_j20083267076110_2_alg».proof.Defs
import proofs.«423377_j20083267076110_2_alg».proof.Proof.Gen.KernelIdeal.Frame
import proofs.«423377_j20083267076110_2_alg».proof.Proof.Spec
import proofs.«423377_j20083267076110_2_alg».proof.Proof.Blocks
import proofs.«423377_j20083267076110_2_alg».proof.Proof.Sweep
import Idealize.ShloMosaic.Lib.Pipeline.Value
import Idealize.ShloMosaic.Lib.StableHlo.Run

noncomputable section

namespace Cert.KernelIdeal.KValue

open Cert.KernelIdeal Cert.KernelIdeal.Gen Cert.KernelIdeal.Blocks
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The region's result array as one function of the arguments: entry (R, 0) is row R's term. -/
def G (c : Dev nD) (hok : Cert.Spec.LabelsOk (m ((c.tc : Thread nD τ).loc main_arg1))) :
    FVec Ideal S8192x1 .f32 :=
  fun i => Cert.Spec.rowLL (m ((c.tc : Thread nD τ).loc main_arg0)) (m ((c.tc : Thread nD τ).loc main_arg1)) hok
    ⟨(i 0).val, (i 0).isLt⟩

/-- Where the result's blocks sit: at point t the block is row tile t / 5, column tile 0. -/
theorem out_index : ∀ t : Fin cfg0.N, win0_2.index t (0 : Fin 2) = t.val / 5 ∧ win0_2.index t (1 : Fin 2) = 0 :=
  (by decide +kernel : ∀ t : Fin grid0.N, win0_2.index t (0 : Fin 2) = t.val / 5 ∧ win0_2.index t (1 : Fin 2) = 0)

/-- What a point of the last column tile writes back is its block of `G`. -/
theorem flushed_eq (c : Dev nD) (hok : Cert.Spec.LabelsOk (m ((c.tc : Thread nD τ).loc main_arg1)))
    (t : Fin cfg0.N) (hf : (cfg0.win 2).flush t = true) :
    (dats m 0 c).flushed 2 t = ((cfg0.win 2).blk t).view.read (Elt Ideal) (G m c hok) := by
  have ht : t.val % 5 = 4 := (flush0_2 t).mp hf
  show (cfg0.win 2).cut (grid0.coords t) ((dats m 0 c).after 2 t) = _
  rw [after0_2]
  funext j
  obtain ⟨r, q, rfl⟩ : ∃ (r : Fin 512) (q : Fin 1), j = ix2 r q := ⟨j 0, j 1, eq_ix2 j⟩
  obtain rfl : q = 0 := Subsingleton.elim _ _
  show (outsAt0 m c t.val t.isLt).1 (ix2 r (0 : Fin 1)) = G m c hok (((cfg0.win 2).blk t).view.emb (ix2 r (0 : Fin 1)))
  rw [Sweep.out_block m c hok t ht r]
  unfold G
  congr 1
  apply Fin.ext
  show 512 * (t.val / 5) + r.val = win0_2.index t (0 : Fin 2) * 512 + 1 * r.val
  rw [(out_index t).1]; omega

/-- An index of the array is in point t's block iff each coordinate is in the block's range. -/
theorem mem_blk (t : Fin cfg0.N) (i : S8192x1.Idx) :
    i ∈ ((cfg0.win 2).blk t).view.set ↔ ∀ a : Fin 2, win0_2.index t a * S512x1.size a ≤ (i a).val ∧ (i a).val < win0_2.index t a * S512x1.size a + S512x1.size a := by
  show i ∈ ((View.whole main_v1).slice (win0_2.rect t)).set ↔ _
  rw [View.set_slice_whole, Rect.mem_set_unit]
  exact Iff.rfl

/-- Row R of the array is written back at the last column tile of its row tile, the point 5·(R / 512) + 4. -/
theorem cover (i : S8192x1.Idx) : ∃ t : Fin cfg0.N, (cfg0.win 2).flush t = true ∧ i ∈ ((cfg0.win 2).blk t).view.set := by
  have hi0 : (i 0).val < 8192 := (i 0).isLt
  have hi1 : (i 1).val < 1 := (i 1).isLt
  have hlt : 5 * ((i 0).val / 512) + 4 < cfg0.N := by rw [N80]; omega
  refine ⟨⟨5 * ((i 0).val / 512) + 4, hlt⟩, (flush0_2 _).mpr (by show (5 * ((i 0).val / 512) + 4) % 5 = 4; omega), ?_⟩
  rw [mem_blk]
  obtain ⟨e0, e1⟩ := out_index ⟨5 * ((i 0).val / 512) + 4, hlt⟩
  intro a
  match a with
  | ⟨0, _⟩ =>
    show win0_2.index ⟨5 * ((i 0).val / 512) + 4, hlt⟩ (0 : Fin 2) * 512 ≤ (i 0).val ∧ (i 0).val < win0_2.index ⟨5 * ((i 0).val / 512) + 4, hlt⟩ (0 : Fin 2) * 512 + 512
    rw [e0]; show (5 * ((i 0).val / 512) + 4) / 5 * 512 ≤ (i 0).val ∧ (i 0).val < (5 * ((i 0).val / 512) + 4) / 5 * 512 + 512
    omega
  | ⟨1, _⟩ =>
    show win0_2.index ⟨5 * ((i 0).val / 512) + 4, hlt⟩ (1 : Fin 2) * 1 ≤ (i 1).val ∧ (i 1).val < win0_2.index ⟨5 * ((i 0).val / 512) + 4, hlt⟩ (1 : Fin 2) * 1 + 1
    rw [e1]; omega

/-- So the region's result array ends holding `G`. -/
theorem final (c : Dev nD) (hok : Cert.Spec.LabelsOk (m ((c.tc : Thread nD τ).loc main_arg1))) :
    (dats m 0 c).arrAt 2 cfg0.N = G m c hok :=
  (dats m 0 c).arrAt_eq_of_cover 2 (G m c hok) (fun t hf => flushed_eq m c hok t hf) cover

/-- The array viewed as a vector of 8192 entries is the vector of the rows' terms: entry R of the vector and
    entry (R, 0) of the array sit at the same row-major position. -/
theorem reshape_G (c : Dev nD) (hok : Cert.Spec.LabelsOk (m ((c.tc : Thread nD τ).loc main_arg1))) :
    shapeCast S8192 (G m c hok) shapeCasts_S8192x1_S8192
      = Cert.Spec.llVec (m ((c.tc : Thread nD τ).loc main_arg0)) (m ((c.tc : Thread nD τ).loc main_arg1)) hok := by
  funext j
  rw [shapeCast_apply (s := S8192x1) (t := S8192) (G m c hok) shapeCasts_S8192x1_S8192 j (ix2 (j 0) (0 : Fin 1))
    (by rw [Shape.rowMajor_val_two, Shape.rowMajor_val_one]; show (j 0).val * 1 + 0 = (j 0).val; omega)]
  rfl

/-- The host operations after the region, applied to the array `G`, give the loss of the rows' terms. -/
theorem tail_eq (c : Dev nD) (hok : Cert.Spec.LabelsOk (m ((c.tc : Thread nD τ).loc main_arg1))) :
    Pipeline.afterTail₀ cfgs (dats m) 0 (V0 m) [hostOps1] c main_v5
      = Cert.Spec.loss (Cert.Spec.llVec (m ((c.tc : Thread nD τ).loc main_arg0)) (m ((c.tc : Thread nD τ).loc main_arg1)) hok)
          reducesTo_S8192_S_d0 h_S_ := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v1)
      = G m c hok :=
    (Pipeline.withArrays_arr spec0 launch0.win.arr_inj c _ _ 2).trans (final m c hok)
  rw [e]
  unfold Cert.Spec.loss
  rw [← reshape_G m c hok]
  rfl

/-- Every weakly fair execution of the idealized kernel's program ends with its result at the loss of the rows'
    terms, and its arguments unchanged — when every label is a column number. -/
theorem run (hok : ∀ c : Dev nD, Cert.Spec.LabelsOk (m ((c.tc : Thread nD τ).loc main_arg1))) :
    θ_run defs (onTc (τ := τ) (main (F := Ideal))) ⟨m, fun _ => 0, ρ⟩ fun r => ∀ c : Dev nD,
      r.2.mem ((c.tc : Thread nD τ).loc main_v5)
          = Cert.Spec.loss (Cert.Spec.llVec (m ((c.tc : Thread nD τ).loc main_arg0)) (m ((c.tc : Thread nD τ).loc main_arg1)) (hok c))
              reducesTo_S8192_S_d0 h_S_
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v5 (Pipeline.mem_restRefs_of main_v5 (by decide) (by decide))).trans (tail_eq m c (hok c)),
      ((h c).1 1).trans (((dats m 0 c).arrAt_in 1 rfl _).trans ((A_eq m c 1).trans (V_main_arg0 m c))),
      ((h c).2 main_arg1 (Pipeline.mem_restRefs_of main_arg1 (by decide) (by decide))).trans (W_main_arg1 m (dats m) c)⟩)
    (run_main m ρ)

end Cert.KernelIdeal.KValue

end
-- ==== Proof.lean ====
/-
  The mean negative log-likelihood of labelled probabilities, computed two ways.

  The reference gathers, for each of the 8192 rows of a [8192, 32000] table `p`, the entry at the row's label, clamps it
  from below by `c` (the binary32 number nearest 1e-8), takes the log, and returns minus the mean:
  `-((0 + ∑ r, log (max (p r (lab r)) c)) / 8192)`.

  The kernel never gathers. It walks a 16 × 5 grid of [512, 6400] blocks of the table; inside a block it walks ten
  chunks of 640 columns; in each chunk it compares every column number with the row's label, keeps the matching entries
  and zeroes the rest, sums each row and adds the sums to a running total kept in a scratch column across the five
  column tiles of a row tile. At the last column tile it writes `log (max total c)` to its [8192, 1] result, and the
  host code after it takes minus the mean.

  Why the two agree: a row has at most one column equal to its label, so the running total after the columns `[0, C)` is
  the labelled entry if the label is below `C` and zero otherwise (Proof/MaskedRow.lean: only `0 + x = x` and
  `x + 0 = x` are used, so the table's entries may be any extended reals), and after all 32000 columns it is the
  labelled entry — provided the label IS one of the columns. That is the precondition's added conjunct,
  `0 ≤ lab r < 32000` for every row: outside it the reference itself leaves the table (it wraps a negative label and
  fills an out-of-range row with a NaN), while the kernel's total stays zero.

  The modules: MaskedRow (one row, one chunk), Chunk (the body's ten chunk updates are one function), Cases (what a grid
  point leaves in the scratch and the output, per control case), Blocks (where a point's blocks sit in the arguments),
  Sweep (the invariant across the grid), KernelValue (the result array and the host tail), RefValue (the reference
  read index by index), PreDecode (the precondition read as `lab r < 32000`), Spec (the common statement).
  The two programs' runs, the kernel's frame and the reference's stage-by-stage reading are the generated modules
  under Proof/Gen.
-/
import proofs.«423377_j20083267076110_2_alg».proof.Defs
import proofs.«423377_j20083267076110_2_alg».proof.Proof.Gen.Kernel
import proofs.«423377_j20083267076110_2_alg».proof.Proof.Gen.Kernel.Skeleton
import proofs.«423377_j20083267076110_2_alg».proof.Proof.Gen.Kernel.Launch
import proofs.«423377_j20083267076110_2_alg».proof.Proof.Gen.Kernel.Points
import proofs.«423377_j20083267076110_2_alg».proof.Proof.Gen.Kernel.Frame
import proofs.«423377_j20083267076110_2_alg».proof.Proof.Gen.KernelIdeal
import proofs.«423377_j20083267076110_2_alg».proof.Proof.Gen.KernelIdeal.Skeleton
import proofs.«423377_j20083267076110_2_alg».proof.Proof.Gen.KernelIdeal.Launch
import proofs.«423377_j20083267076110_2_alg».proof.Proof.Gen.KernelIdeal.Points
import proofs.«423377_j20083267076110_2_alg».proof.Proof.Gen.KernelIdeal.Frame
import proofs.«423377_j20083267076110_2_alg».proof.Proof.Gen.ReferenceIdeal
import proofs.«423377_j20083267076110_2_alg».proof.Proof.Gen.ReferenceIdeal.Run
import proofs.«423377_j20083267076110_2_alg».proof.Proof.Gen.ReferenceIdeal.Read
import proofs.«423377_j20083267076110_2_alg».proof.Proof.Gen.Pre_finite_inputs
import proofs.«423377_j20083267076110_2_alg».proof.Proof.Spec
import proofs.«423377_j20083267076110_2_alg».proof.Proof.PreDecode
import proofs.«423377_j20083267076110_2_alg».proof.Proof.RefValue
import proofs.«423377_j20083267076110_2_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is host operations only: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals both programs end at the loss of the rows' terms `log (max (p r (lab r)) c)`: the
    kernel by its masked sweep (Proof/KernelValue.lean), the reference by its gather (Proof/RefValue.lean), the
    labels being column numbers by the precondition (Proof/PreDecode.lean). -/
theorem algebraic : Cert.algebraic_KernelIdeal_ReferenceIdeal := by
  intro m ρ m' ρ' hpre hagree
  have hok : ∀ c : Dev Cert.KernelIdeal.nD,
      Cert.Spec.LabelsOk (m ((c.tc : Thread Cert.KernelIdeal.nD Cert.KernelIdeal.τ).loc Cert.KernelIdeal.main_arg1)) :=
    fun c => Cert.PreDecode.labels_ok_of_pre (F := Ideal) _ _ (hpre c)
  refine ⟨_, Cert.KernelIdeal.KValue.run m ρ hok, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, (hagree c).1, (hagree c).2]
  exact Cert.ReferenceIdeal.RefValue.result_eq _ _ (hok c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
